-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S8x4096x128 : Shape := ⟨3, ![8, 4096, 128]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x4096 .f32) (main_arg1 : FVec F S8x4096x128 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x4096 : Shape := ⟨3, ![8, 4096, 4096]⟩
abbrev S8x4096x128 : Shape := ⟨3, ![8, 4096, 128]⟩
abbrev S1x1024x1024 : Shape := ⟨3, ![1, 1024, 1024]⟩
abbrev S1x1024x128 : Shape := ⟨3, ![1, 1024, 128]⟩
abbrev S1024x128 : Shape := ⟨2, ![1024, 128]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x4096, .f32⟩
  | .hbm, ⟨1, _⟩ => ⟨S8x4096x128, .f32⟩
  | .hbm, ⟨2, _⟩ => ⟨S8x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x4096.size a
  hwx0_0 : ∀ i : grid0.Coords, EltTy.bits .f32 = 32 ∨ (Rect.block (s := S8x4096x4096) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x4096x128.size a
  hwx0_2 : ∀ i : grid0.Coords, EltTy.bits .f32 = 32 ∨ (Rect.block (s := S8x4096x128) S1x1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x4096 : Shape := ⟨3, ![8, 4096, 4096]⟩
abbrev S8x4096x128 : Shape := ⟨3, ![8, 4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S8x4096x128, .f32⟩
  | .hbm, ⟨2, _⟩ => ⟨S8x4096x128, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x4096_S8x4096x128_S8x4096x128_2_1_1_2_0_0_wf : DotDims.WF S8x4096x4096 S8x4096x128 S8x4096x128 [2] [1] [1] [2] [0] [0]

variable [Facts₀]

def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.BmmSpec.lean ====
/-
  The mathematics of the batched matrix product, with no program in sight.

  For a : [8, 4096, 4096] and b : [8, 4096, 128] over the extended reals the product is
    bmm a b (β, r, n) = ∑ k < 4096, a (β, r, k) · b (β, k, n).
  A contraction of length 4096 = 4 · 1024 is the sum, over its four consecutive stretches of length 1024, of the
  stretches' partial contractions: addition of extended reals is commutative and associative (⊤ + ⊥ = ⊥ included),
  so regrouping a finite sum needs no finiteness of the entries.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Bmm

open Idealize.ShloMosaic Idealize.ShloMosaic.ValueIdx

/-- The left operand's, the right operand's and the product's index sets. -/
abbrev SA : Shape := ⟨3, ![8, 4096, 4096]⟩
abbrev SB : Shape := ⟨3, ![8, 4096, 128]⟩

/-- The batched product at one entry: row `r` of batch `β` of `a` against column `n` of batch `β` of `b`. -/
def bmm (a : SA.Idx → EReal) (b : SB.Idx → EReal) : SB.Idx → EReal :=
  fun i => ∑ k : Fin 4096, a (ix3 (i 0) (i 1) k) * b (ix3 (i 0) k (i 2))

/-- A sum over 4096 consecutive naturals is the sum over its four stretches of 1024 of the stretches' sums. -/
theorem sum_stretches {M : Type*} [AddCommMonoid M] (f : ℕ → M) :
    ∑ s ∈ Finset.range 4, ∑ q : Fin 1024, f (1024 * s + q.val) = ∑ k : Fin 4096, f k.val := by
  rw [Finset.sum_range (fun s => ∑ q : Fin 1024, f (1024 * s + q.val)), ← Fintype.sum_prod_type']
  refine Fintype.sum_equiv (finProdFinEquiv (m := 4) (n := 1024)) _ (fun k : Fin 4096 => f k.val) (fun p => ?_)
  show f (1024 * p.1.val + p.2.val) = f (p.2.val + 1024 * p.1.val)
  rw [Nat.add_comm]

/-- One product of the contraction, indexed by a natural (zero past the contraction's length). -/
def term (a : SA.Idx → EReal) (b : SB.Idx → EReal) (β : Fin 8) (r : Fin 4096) (n : Fin 128) (k : ℕ) : EReal :=
  if h : k < 4096 then a (ix3 β r ⟨k, h⟩) * b (ix3 β ⟨k, h⟩ n) else 0

/-- An entry of the product is the sum over the four stretches of the stretches' partial contractions. -/
theorem bmm_eq_stretches (a : SA.Idx → EReal) (b : SB.Idx → EReal) (β : Fin 8) (r : Fin 4096) (n : Fin 128) :
    bmm a b (ix3 β r n) = ∑ s ∈ Finset.range 4, ∑ q : Fin 1024, term a b β r n (1024 * s + q.val) := by
  rw [sum_stretches (term a b β r n)]
  unfold bmm
  refine Finset.sum_congr rfl fun k _ => ?_
  have e : term a b β r n k.val = a (ix3 β r k) * b (ix3 β k n) := dif_pos k.isLt
  exact e.symm

end Cert.Bmm

end
-- ==== Proof.BmmPayload.lean ====
/-
  The body's arithmetic, read at one entry over the extended reals.

  One grid point of the kernel holds a [1024, 1024] tile `x` of the left operand, a [1024, 128] tile `w` of the
  right operand and the running [1024, 128] accumulator `acc`. A change of float format is the identity on
  extended reals, and the matrix unit's product into a zero accumulator is the plain contraction, so the
  accumulator after the point is, at row `p` and column `q`,
      acc (p, q) + ∑ k < 1024, x (p, k) · w (k, q).
  The reset stores zero, and the write-back copies the accumulator unchanged.
-/
import proofs.«160117_j7284264534722_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BmmPayload

open Cert.KernelIdeal Cert.KernelIdeal.Gen Idealize.ShloMosaic Idealize.ShloMosaic.ValueIdx

/-! ## The tile product's operand indices: rows of the left tile, columns of the right, one contracted axis -/

theorem lhs_row (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_contr (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
theorem rhs_contr (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
theorem rhs_col (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The tile product into a zero accumulator is the contraction over the 1024 shared coordinates. -/
theorem tile_product_apply (L : FVec Ideal S1024x1024 .bf16) (R : FVec Ideal S1024x128 .bf16) (p : Fin 1024) (q : Fin 128) :
    matmul dot_S1024x1024_S1024x128_S1024x128_1_0_0_1_n_n none L R (constant S1024x128 .f32 0x00000000#32) (ix2 p q)
      = ∑ k : Fin 1024, L (ix2 p k) * R (ix2 k q) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun a => Fin.ext (by
    match a with
    | ⟨0, _⟩ => exact (rhs_contr _ _).trans hk
    | ⟨1, _⟩ => exact rhs_col _ _)
  rw [el, er]

/-! ## The three stored values at an entry -/

/-- The reset stores zero. -/
theorem reset_apply (j : S1024x128.Idx) : k0_pay1 (F := Ideal) j = 0 := by
  unfold k0_pay1
  rw [shapeCast_self]
  show Ideal.ofBits .f32 0x00000000#32 = 0
  exact Ideal.ofBits_zero_f32

/-- The update adds the tiles' contraction to the accumulator. -/
theorem update_apply (x : Vec Ideal S1x1024x1024 .f32) (w : Vec Ideal S1x1024x128 .f32) (acc : Vec Ideal S1024x128 .f32)
    (p : Fin 1024) (q : Fin 128) :
    k0_pay2 (F := Ideal) x w acc (ix2 p q)
      = acc (ix2 p q) + ∑ k : Fin 1024, x (ix3 (0 : Fin 1) p k) * w (ix3 (0 : Fin 1) k q) := by
  unfold k0_pay2
  rw [shapeCast_self, addf_apply, tile_product_apply]
  refine congrArg (acc (ix2 p q) + ·) (Finset.sum_congr rfl fun k _ => ?_)
  rw [truncf_apply, truncf_apply, shapeCast_1ab_ab_apply, shapeCast_1ab_ab_apply]

/-- The write-back's block is the accumulator with a leading unit axis. -/
theorem writeback_apply (acc : Vec Ideal S1024x128 .f32) (u : Fin 1) (p : Fin 1024) (q : Fin 128) :
    k0_pay3 (F := Ideal) acc (ix3 u p q) = acc (ix2 p q) := by
  unfold k0_pay3
  rw [shapeCast_ab_1ab_apply]

end Cert.KernelIdeal.BmmPayload

end
-- ==== Proof.BmmPieces.lean ====
/-
  What one grid point leaves behind, as values.

  Whatever staging buffers the pipeline hands the body, the body's stores are whole-buffer stores, so each buffer
  ends at its last store's value. At a point that opens a row tile's run (k = 0) the accumulator is first zeroed
  and then updated: it ends at the update of zero. At every other point it ends at the update of what the point
  before left. At a run's last point (k = 3) the output block is stored with the accumulator just written.
-/
import proofs.«160117_j7284264534722_1_alg».proof.Proof.Gen.KernelIdeal.Frame
import Idealize.ShloMosaic.Lib.Pipeline.Value
import Idealize.ShloMosaic.Lib.Tactic

noncomputable section

namespace Cert.KernelIdeal.BmmPieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that opens a run leaves the update of the zero block in the accumulator. -/
theorem acc_first (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1024x128 .f32) (h6 : a6.IsWhole) (hc0 : cond0_0 i) (hc1 : ¬cond0_1 i)
    (x0 : Vec F S1x1024x1024 .f32) (x1 : Vec F S1x1024x128 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x128) hz2, View.readCov_unit_zero (S := S1024x128) _ hz2]
  simp only [View.readAt_eq_ld, h3.read_unread, h4.read_unread, h5.read_unread, h6.read_unread, View.ld_unit_zero (S := S1x1024x1024) hz3, View.ld_unit_zero (S := S1x1024x128) hz3, View.ld_unit_zero (S := S1024x128) hz2, View.readCov_unit_zero (S := S1024x128) _ hz2]

/-- A point inside a run leaves the update of the accumulator it found. -/
theorem acc_middle (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1024x128 .f32) (h6 : a6.IsWhole) (hc0 : ¬cond0_0 i) (hc1 : ¬cond0_1 i)
    (x0 : Vec F S1x1024x1024 .f32) (x1 : Vec F S1x1024x128 .f32) (xs0 : Vec F S1024x128 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h5.read_unread, h6.read_unread, View.ld_unit_zero (S := S1x1024x1024) hz3, View.ld_unit_zero (S := S1x1024x128) hz3, View.ld_unit_zero (S := S1024x128) hz2, View.readCov_unit_zero (S := S1024x128) _ hz2]

/-- So does the point that closes a run, -/
theorem acc_last (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1024x128 .f32) (h6 : a6.IsWhole) (hc0 : ¬cond0_0 i) (hc1 : cond0_1 i)
    (x0 : Vec F S1x1024x1024 .f32) (x1 : Vec F S1x1024x128 .f32) (xs0 : Vec F S1024x128 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h5.read_unread, h6.read_unread, View.ld_unit_zero (S := S1x1024x1024) hz3, View.ld_unit_zero (S := S1x1024x128) hz3, View.ld_unit_zero (S := S1024x128) hz2, View.readCov_unit_zero (S := S1024x128) _ hz2]

/-- and its output block is that accumulator with a leading unit axis. -/
theorem block_last (c : Dev nD) (i : grid0.Coords) (a3 : Memref sig .tc .vmem S1x1024x1024 .f32) (h3 : a3.IsWhole) (a4 : Memref sig .tc .vmem S1x1024x128 .f32) (h4 : a4.IsWhole) (a5 : Memref sig .tc .vmem S1x1024x128 .f32) (h5 : a5.IsWhole) (a6 : Memref sig .tc .vmem S1024x128 .f32) (h6 : a6.IsWhole) (hc0 : ¬cond0_0 i) (hc1 : cond0_1 i)
    (x0 : Vec F S1x1024x1024 .f32) (x1 : Vec F S1x1024x128 .f32) (xs0 : Vec F S1024x128 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3]
  simp only [View.readAt_eq_ld, h3.read_unread, h4.read_unread, h5.read_unread, h6.read_unread, View.ld_unit_zero (S := S1x1024x1024) hz3, View.ld_unit_zero (S := S1x1024x128) hz3, View.ld_unit_zero (S := S1024x128) hz2, View.readCov_unit_zero (S := S1024x128) _ hz2]

end Cert.KernelIdeal.BmmPieces

end
-- ==== Proof.BmmBlocks.lean ====
/-
  Where a point's tiles sit in the operands.

  The grid is 8 × 4 × 4, walked with the contraction axis innermost: point `t` is batch `t / 16`, row tile
  `t / 4 % 4`, contraction stretch `t % 4`. Its tile of the left operand is rows `1024 · (t / 4 % 4) + p` and
  columns `1024 · (t % 4) + k` of that batch; its tile of the right operand is rows `1024 · (t % 4) + k` of that
  batch, all 128 columns.
-/
import proofs.«160117_j7284264534722_1_alg».proof.Proof.Gen.KernelIdeal.Frame
import Idealize.ShloMosaic.Lib.ValueIdx
import Idealize.ShloMosaic.Lib.Pipeline.Value

noncomputable section

namespace Cert.KernelIdeal.BmmBlocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The operands as the kernel finds them, and a point's two tiles, at their literal types. -/
abbrev aArr (c : Dev nD) : Vec F S8x4096x4096 .f32 := m ((c : Thread nD τ).loc main_arg0)
abbrev bArr (c : Dev nD) : Vec F S8x4096x128 .f32 := m ((c : Thread nD τ).loc main_arg1)
abbrev aTile (c : Dev nD) (t : Fin cfg0.N) : Vec F S1x1024x1024 .f32 := iblk m c 0 t
abbrev bTile (c : Dev nD) (t : Fin cfg0.N) : Vec F S1x1024x128 .f32 := iblk m c 1 t

/-- The block indices of the three windows at a point, decided over the grid's 128 points. -/
theorem index_a : ∀ t : Fin cfg0.N, win0_0.index t (0 : Fin 3) = t.val / 16 ∧ win0_0.index t (1 : Fin 3) = t.val / 4 % 4 ∧ win0_0.index t (2 : Fin 3) = t.val % 4 :=
  (by decide +kernel : ∀ t : Fin grid0.N, win0_0.index t (0 : Fin 3) = t.val / 16 ∧ win0_0.index t (1 : Fin 3) = t.val / 4 % 4 ∧ win0_0.index t (2 : Fin 3) = t.val % 4)
theorem index_b : ∀ t : Fin cfg0.N, win0_1.index t (0 : Fin 3) = t.val / 16 ∧ win0_1.index t (1 : Fin 3) = t.val % 4 ∧ win0_1.index t (2 : Fin 3) = 0 :=
  (by decide +kernel : ∀ t : Fin grid0.N, win0_1.index t (0 : Fin 3) = t.val / 16 ∧ win0_1.index t (1 : Fin 3) = t.val % 4 ∧ win0_1.index t (2 : Fin 3) = 0)
theorem index_o : ∀ t : Fin cfg0.N, win0_2.index t (0 : Fin 3) = t.val / 16 ∧ win0_2.index t (1 : Fin 3) = t.val / 4 % 4 ∧ win0_2.index t (2 : Fin 3) = 0 :=
  (by decide +kernel : ∀ t : Fin grid0.N, win0_2.index t (0 : Fin 3) = t.val / 16 ∧ win0_2.index t (1 : Fin 3) = t.val / 4 % 4 ∧ win0_2.index t (2 : Fin 3) = 0)

/-- The left tile at a point, entry by entry. -/
theorem aTile_apply (c : Dev nD) (t : Fin cfg0.N) (u : Fin 1) (p k : Fin 1024) (β : Fin 8) (r j : Fin 4096)
    (hβ : β.val = t.val / 16) (hr : r.val = 1024 * (t.val / 4 % 4) + p.val) (hj : j.val = 1024 * (t.val % 4) + k.val) :
    aTile m c t (ix3 u p k) = aArr m c (ix3 β r j) := by
  obtain ⟨h0, h1, h2⟩ := index_a t
  have hu : u.val = 0 := by omega
  show iblk m c 0 t (ix3 u p k) = _
  unfold iblk
  rw [View.read_apply]
  show m ((c : Thread nD τ).loc main_arg0) _ = m ((c : Thread nD τ).loc main_arg0) _
  congr 1
  funext a
  apply Fin.ext
  match a with
  | ⟨0, _⟩ => show win0_0.index t 0 * 1 + 1 * u.val = β.val; rw [h0, hβ, hu]; omega
  | ⟨1, _⟩ => show win0_0.index t 1 * 1024 + 1 * p.val = r.val; rw [h1, hr]; omega
  | ⟨2, _⟩ => show win0_0.index t 2 * 1024 + 1 * k.val = j.val; rw [h2, hj]; omega

/-- The right tile at a point, entry by entry. -/
theorem bTile_apply (c : Dev nD) (t : Fin cfg0.N) (u : Fin 1) (k : Fin 1024) (q : Fin 128) (β : Fin 8) (j : Fin 4096)
    (hβ : β.val = t.val / 16) (hj : j.val = 1024 * (t.val % 4) + k.val) :
    bTile m c t (ix3 u k q) = bArr m c (ix3 β j q) := by
  obtain ⟨h0, h1, h2⟩ := index_b t
  have hu : u.val = 0 := by omega
  show iblk m c 1 t (ix3 u k q) = _
  unfold iblk
  rw [View.read_apply]
  show m ((c : Thread nD τ).loc main_arg1) _ = m ((c : Thread nD τ).loc main_arg1) _
  congr 1
  funext a
  apply Fin.ext
  match a with
  | ⟨0, _⟩ => show win0_1.index t 0 * 1 + 1 * u.val = β.val; rw [h0, hβ, hu]; omega
  | ⟨1, _⟩ => show win0_1.index t 1 * 1024 + 1 * k.val = j.val; rw [h1, hj]; omega
  | ⟨2, _⟩ => show win0_1.index t 2 * 128 + 1 * q.val = q.val; rw [h2]; omega

end Cert.KernelIdeal.BmmBlocks

end
-- ==== Proof.BmmFold.lean ====
/-
  The accumulator along a row tile's run of four points.

  Each point adds its tiles' contraction (its ADDEND) to the accumulator; the run's first point adds it to zero.
  So after the point at offset `t % 4` of the run that starts at `4 · (t / 4)` the accumulator holds zero plus the sum
  of the addends of the run's points so far, and the block written back at the run's last point is zero plus the
  sum of all four addends.
-/
import proofs.«160117_j7284264534722_1_alg».proof.Proof.Gen.KernelIdeal.Value
import proofs.«160117_j7284264534722_1_alg».proof.Proof.BmmPayload
import proofs.«160117_j7284264534722_1_alg».proof.Proof.BmmPieces
import proofs.«160117_j7284264534722_1_alg».proof.Proof.BmmBlocks

noncomputable section

open scoped BigOperators

namespace Cert.KernelIdeal.BmmFold

open Cert.KernelIdeal Cert.KernelIdeal.Gen Cert.KernelIdeal.BmmBlocks
open Idealize.ShloMosaic Idealize.ShloMosaic.TcCoe Idealize.SL.Sem Idealize.ShloMosaic.ValueIdx

variable (m : (ℓ : Loc nD τ sig) → Buf (Elt Ideal) ℓ)

/-- Point `n`'s addend at accumulator entry `i`: the contraction of the point's two tiles (zero past the grid,
    where there is no point). -/
def addend (c : Dev nD) (n : ℕ) (i : S1024x128.Idx) : EReal :=
  if h : n < cfg0.N then
    ∑ k : Fin 1024, aTile m c ⟨n, h⟩ (ix3 (0 : Fin 1) (i 0) k) * bTile m c ⟨n, h⟩ (ix3 (0 : Fin 1) k (i 1))
  else 0

/-- The first point of a run leaves zero plus its addend, whatever the accumulator held. -/
theorem step_first (c : Dev nD) (n : ℕ) (h : n < cfg0.N) (h0 : n % 4 = 0) (acc : Vec Ideal S1024x128 .f32) (i : S1024x128.Idx) :
    Value.scAt0_0 m c n h acc i = 0 + addend m c n i := by
  have h1 : ¬ n % 4 = 3 := by omega
  unfold Value.scAt0_0
  rw [dif_pos h0, dif_neg h1]
  refine (congrFun (BmmPieces.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (aTile m c ⟨n, h⟩) (bTile m c ⟨n, h⟩)) i).trans ?_
  obtain ⟨p, q, rfl⟩ : ∃ (p : Fin 1024) (q : Fin 128), i = ix2 p q := ⟨i 0, i 1, eq_ix2 i⟩
  rw [BmmPayload.update_apply, BmmPayload.reset_apply]
  unfold addend
  rw [dif_pos h]

/-- Every later point of a run adds its addend to what the point before left. -/
theorem step_later (c : Dev nD) (n : ℕ) (h : n < cfg0.N) (h0 : ¬ n % 4 = 0) (acc : Vec Ideal S1024x128 .f32) (i : S1024x128.Idx) :
    Value.scAt0_0 m c n h acc i = acc i + addend m c n i := by
  obtain ⟨p, q, rfl⟩ : ∃ (p : Fin 1024) (q : Fin 128), i = ix2 p q := ⟨i 0, i 1, eq_ix2 i⟩
  unfold Value.scAt0_0
  rw [dif_neg h0]
  by_cases h1 : n % 4 = 3
  · rw [dif_pos h1]
    refine (congrFun (BmmPieces.acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h1) (aTile m c ⟨n, h⟩) (bTile m c ⟨n, h⟩) acc) (ix2 p q)).trans ?_
    rw [BmmPayload.update_apply]
    unfold addend
    rw [dif_pos h]
  · rw [dif_neg h1]
    refine (congrFun (BmmPieces.acc_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) (fun hh => h1 ((hcond0_1 ⟨n, h⟩).mp hh)) (aTile m c ⟨n, h⟩) (bTile m c ⟨n, h⟩) acc) (ix2 p q)).trans ?_
    rw [BmmPayload.update_apply]
    unfold addend
    rw [dif_pos h]

/-- The accumulator after point `t`: zero plus the addends of its run's points up to `t`. -/
theorem acc_after (c : Dev nD) (t : Fin cfg0.N) (i : S1024x128.Idx) :
    (outsAt0 m c t.val t.isLt).2 i = 0 + ∑ s ∈ Finset.range (t.val % 4 + 1), addend m c (4 * (t.val / 4) + s) i := by
  rw [Value.soutsAt0_0_eq]
  exact Pipeline.accAt_add_apply (ι := S1024x128.Idx) (β := EReal) _ _ (fun _ => 0) (addend m c) (4 * (t.val / 4)) 3
    (fun h i => step_first m c _ h (by omega) _ i)
    (fun n h acc i hb he => step_later m c n h (by omega) acc i)
    (t.val % 4) (by omega) _ i

/-- At a run's last point the output block is the accumulator the point leaves, with a leading unit axis. -/
theorem block_eq_acc (c : Dev nD) (t : Fin cfg0.N) (h3 : t.val % 4 = 3) :
    (outsAt0 m c t.val t.isLt).1 = k0_pay3 (F := Ideal) (outsAt0 m c t.val t.isLt).2 := by
  have h0 : ¬ t.val % 4 = 0 := by omega
  rw [outsAt0_C m c t h0 h3]
  dsimp only
  exact (BmmPieces.block_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h3) (iblk m c 0 t) (iblk m c 1 t) (outsAt0 m c (t.val - 1) (Nat.lt_of_le_of_lt (Nat.sub_le _ _) t.isLt)).2).trans
    (congrArg (k0_pay3 (F := Ideal)) (BmmPieces.acc_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h3) (iblk m c 0 t) (iblk m c 1 t) (outsAt0 m c (t.val - 1) (Nat.lt_of_le_of_lt (Nat.sub_le _ _) t.isLt)).2).symm)

/-- So the block a run's last point writes back is, entry by entry, zero plus the run's four addends. -/
theorem block_after (c : Dev nD) (t : Fin cfg0.N) (h3 : t.val % 4 = 3) (u : Fin 1) (p : Fin 1024) (q : Fin 128) :
    (outsAt0 m c t.val t.isLt).1 (ix3 u p q)
      = 0 + ∑ s ∈ Finset.range 4, addend m c (4 * (t.val / 4) + s) (ix2 p q) := by
  rw [block_eq_acc m c t h3, BmmPayload.writeback_apply, acc_after m c t (ix2 p q), h3]

end Cert.KernelIdeal.BmmFold

end
-- ==== Proof.BmmRun.lean ====
/-
  The result array after the kernel's run is the batched product of the operands.

  The point that closes the run of row tile `ρ` of batch `β` (point `16 β + 4 ρ + 3`) writes back block
  `(β, ρ)` of the result. By the accumulator's fold its entry `(p, q)` is zero plus the four stretches'
  contractions of row `1024 ρ + p` of `a[β]` against column `q` of `b[β]`, which is that entry of the product
  (the contraction regrouped into its stretches). The 32 closing points' blocks tile the result array, so the array
  ends holding the product.
-/
import proofs.«160117_j7284264534722_1_alg».proof.Proof.BmmSpec
import proofs.«160117_j7284264534722_1_alg».proof.Proof.BmmFold

noncomputable section

open scoped BigOperators

namespace Cert.KernelIdeal.BmmRun

open Cert.KernelIdeal Cert.KernelIdeal.Gen Cert.KernelIdeal.BmmBlocks Cert.KernelIdeal.BmmFold
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The product of the operands as the kernel finds them. -/
abbrev product (c : Dev nD) : Buf (Elt Ideal) ((c : Thread nD τ).loc main_v0) := Cert.Bmm.bmm (aArr m c) (bArr m c)

/-- The addend of the run's point at offset `s` is the `s`-th stretch's partial contraction. -/
theorem addend_eq_stretch (c : Dev nD) (t : Fin cfg0.N) (s : ℕ) (hs : s < 4) (p : Fin 1024) (q : Fin 128) (β : Fin 8) (r : Fin 4096)
    (hβ : β.val = t.val / 16) (hr : r.val = 1024 * (t.val / 4 % 4) + p.val) :
    addend m c (4 * (t.val / 4) + s) (ix2 p q)
      = ∑ k : Fin 1024, Cert.Bmm.term (aArr m c) (bArr m c) β r q (1024 * s + k.val) := by
  have hN : cfg0.N = 128 := N_0
  have ht : t.val < 128 := lt_of_lt_of_eq t.isLt hN
  have hn : 4 * (t.val / 4) + s < cfg0.N := lt_of_lt_of_eq (by omega : 4 * (t.val / 4) + s < 128) hN.symm
  unfold addend
  rw [dif_pos hn]
  refine Finset.sum_congr rfl fun k _ => ?_
  have hk : 1024 * s + k.val < 4096 := by have := k.isLt; omega
  rw [aTile_apply m c ⟨4 * (t.val / 4) + s, hn⟩ 0 p k β r ⟨1024 * s + k.val, hk⟩ (by show β.val = (4 * (t.val / 4) + s) / 16; omega)
      (by show r.val = 1024 * ((4 * (t.val / 4) + s) / 4 % 4) + p.val; omega) (by show 1024 * s + k.val = 1024 * ((4 * (t.val / 4) + s) % 4) + k.val; omega),
    bTile_apply m c ⟨4 * (t.val / 4) + s, hn⟩ 0 k q β ⟨1024 * s + k.val, hk⟩ (by show β.val = (4 * (t.val / 4) + s) / 16; omega)
      (by show 1024 * s + k.val = 1024 * ((4 * (t.val / 4) + s) % 4) + k.val; omega)]
  have e : Cert.Bmm.term (aArr m c) (bArr m c) β r q (1024 * s + k.val)
      = aArr m c (ix3 β r ⟨1024 * s + k.val, hk⟩) * bArr m c (ix3 β ⟨1024 * s + k.val, hk⟩ q) := dif_pos hk
  exact e.symm

/-- Membership in the block a point writes back, coordinate by coordinate. -/
theorem mem_block (t : Fin cfg0.N) (i : S8x4096x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v0).slice (win0_2.rect t)).set ↔ _
  rw [View.set_slice_whole, Rect.mem_set_unit]
  exact Iff.rfl

/-- What a closing point writes back is its block of the product. -/
theorem flushed_eq (c : Dev nD) (t : Fin cfg0.N) (h3 : t.val % 4 = 3) :
    (dats m 0 c).flushed 2 t = ((cfg0.win 2).blk t).view.read (Elt Ideal) (product m c) := by
  have hN : cfg0.N = 128 := N_0
  have ht : t.val < 128 := lt_of_lt_of_eq t.isLt hN
  obtain ⟨e0, e1, e2⟩ := index_o t
  rw [Value.flushed2]
  funext j
  obtain ⟨u, p, q, rfl⟩ : ∃ (u : Fin 1) (p : Fin 1024) (q : Fin 128), j = ix3 u p q := ⟨j 0, j 1, j 2, eq_ix3 j⟩
  have hu : u.val = 0 := by omega
  show (outsAt0 m c t.val t.isLt).1 (ix3 u p q) = Cert.Bmm.bmm (aArr m c) (bArr m c) (((cfg0.win 2).blk t).view.emb (ix3 u p q))
  have hemb : ((cfg0.win 2).blk t).view.emb (ix3 u p q)
      = ix3 (⟨t.val / 16, by omega⟩ : Fin 8) (⟨1024 * (t.val / 4 % 4) + p.val, by have := p.isLt; omega⟩ : Fin 4096) q := by
    funext a; apply Fin.ext
    match a with
    | ⟨0, _⟩ => show win0_2.index t 0 * 1 + 1 * u.val = t.val / 16; rw [e0, hu]; omega
    | ⟨1, _⟩ => show win0_2.index t 1 * 1024 + 1 * p.val = 1024 * (t.val / 4 % 4) + p.val; rw [e1]; omega
    | ⟨2, _⟩ => show win0_2.index t 2 * 128 + 1 * q.val = q.val; rw [e2]; omega
  rw [hemb, Cert.Bmm.bmm_eq_stretches, block_after m c t h3 u p q, zero_add]
  refine Finset.sum_congr rfl fun s hs => ?_
  exact addend_eq_stretch m c t s (Finset.mem_range.mp hs) p q _ _ rfl rfl

/-- Every entry of the result lies in the block of the point that closes its row tile's run. -/
theorem cover (i : S8x4096x128.Idx) : ∃ t : Fin cfg0.N, (cfg0.win 2).flush t = true ∧ i ∈ ((cfg0.win 2).blk t).view.set := by
  have hN : cfg0.N = 128 := N_0
  have h0 : (i 0).val < 8 := (i 0).isLt
  have h1 : (i 1).val < 4096 := (i 1).isLt
  have h2 : (i 2).val < 128 := (i 2).isLt
  let t : Fin cfg0.N := ⟨16 * (i 0).val + 4 * ((i 1).val / 1024) + 3, lt_of_lt_of_eq (by omega : 16 * (i 0).val + 4 * ((i 1).val / 1024) + 3 < 128) hN.symm⟩
  have tv : t.val = 16 * (i 0).val + 4 * ((i 1).val / 1024) + 3 := rfl
  obtain ⟨e0, e1, e2⟩ := index_o t
  refine ⟨t, (flush0_2 t).mpr (by rw [tv]; omega), ?_⟩
  rw [mem_block]
  intro a
  match a with
  | ⟨0, _⟩ => show win0_2.index t 0 * 1 ≤ (i 0).val ∧ (i 0).val < win0_2.index t 0 * 1 + 1; rw [e0, tv]; omega
  | ⟨1, _⟩ => show win0_2.index t 1 * 1024 ≤ (i 1).val ∧ (i 1).val < win0_2.index t 1 * 1024 + 1024; rw [e1, tv]; omega
  | ⟨2, _⟩ => show win0_2.index t 2 * 128 ≤ (i 2).val ∧ (i 2).val < win0_2.index t 2 * 128 + 128; rw [e2]; omega

/-- The result array after the run is the product. -/
theorem final (c : Dev nD) : (dats m 0 c).arrAt 2 cfg0.N = product m c :=
  (dats m 0 c).arrAt_eq_of_cover 2 (product m c) (fun t hf => flushed_eq m c t ((flush0_2 t).mp hf)) cover

/-- Every weakly fair execution of the kernel's program terminates with the result array at the product of the
    operands, the operands unchanged. -/
theorem run : θ_run defs (onTc (τ := τ) (main (F := Ideal))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.BmmRun

end
-- ==== Proof.BmmRef.lean ====
/-
  The reference computes the batched product: its one operation contracts the last axis of `a` with the middle axis
  of `b`, batch by batch, which over the extended reals is the sum over the 4096 shared coordinates of the products.
-/
import proofs.«160117_j7284264534722_1_alg».proof.Proof.Gen.ReferenceIdeal.Read
import proofs.«160117_j7284264534722_1_alg».proof.Proof.BmmSpec

noncomputable section

open scoped BigOperators

namespace Cert.ReferenceIdeal.BmmRef

open Cert.ReferenceIdeal Cert.ReferenceIdeal.Gen Idealize.ShloMosaic Idealize.ShloMosaic.ValueIdx

/-- The reference's result term is the product of its operands. -/
theorem reference_eq (a : (⟨S8x4096x4096, .f32⟩ : BufTy).Contents (Elt Ideal)) (b : (⟨S8x4096x128, .f32⟩ : BufTy).Contents (Elt Ideal)) :
    Read.val_main_v0 (F := Ideal) a b = Cert.Bmm.bmm a b := by
  funext i
  rw [Read.val_main_v0_apply]
  unfold Cert.Bmm.bmm
  refine Finset.sum_congr rfl fun k _ => ?_
  have el : Read.lidx_main_v0 i k = ix3 (i 0) (i 1) k :=
    funext fun d => match d with | ⟨0, _⟩ => rfl | ⟨1, _⟩ => rfl | ⟨2, _⟩ => rfl
  have er : Read.ridx_main_v0 i k = ix3 (i 0) k (i 2) :=
    funext fun d => match d with | ⟨0, _⟩ => rfl | ⟨1, _⟩ => rfl | ⟨2, _⟩ => rfl
  exact congrArg₂ (fun (x y : EReal) => x * y) (congrArg a el) (congrArg b er)

end Cert.ReferenceIdeal.BmmRef

end
-- ==== Proof.lean ====
/-
  The kernel computes C[β] = A[β] · B[β] for eight batches, A[β] : [4096, 4096], B[β] : [4096, 128], tile by tile: a
  grid of 8 batches × 4 row tiles × 4 contraction stretches, the stretches innermost. Along a row tile's run of four
  points a [1024, 128] accumulator is zeroed, receives each stretch's partial product (a [1024, 1024] tile of A
  against a [1024, 128] tile of B), and is written back as the result's block at the run's last point. The
  reference is the whole contraction in one operation.

  Over the extended reals a change of float format is the identity and every product and sum is exact, so the
  block written back holds, at each entry, zero plus the four stretches' partial contractions, and the contraction
  of length 4096 is the sum of its four stretches of length 1024 (addition of extended reals is commutative and
  associative, so no finiteness of the entries is needed). The blocks tile the result, so both programs end with the
  batched product of the operands.

  The three programs' runs (termination, no fault, operands unchanged) are the generated frames and the generated
  reference run; the idealization rewrote nothing, so `preserves` is trivial.
-/
import proofs.«160117_j7284264534722_1_alg».proof.Defs
import proofs.«160117_j7284264534722_1_alg».proof.Proof.Gen.Kernel
import proofs.«160117_j7284264534722_1_alg».proof.Proof.Gen.Kernel.Skeleton
import proofs.«160117_j7284264534722_1_alg».proof.Proof.Gen.Kernel.Launch
import proofs.«160117_j7284264534722_1_alg».proof.Proof.Gen.Kernel.Points
import proofs.«160117_j7284264534722_1_alg».proof.Proof.Gen.Kernel.Frame
import proofs.«160117_j7284264534722_1_alg».proof.Proof.Gen.KernelIdeal
import proofs.«160117_j7284264534722_1_alg».proof.Proof.Gen.KernelIdeal.Skeleton
import proofs.«160117_j7284264534722_1_alg».proof.Proof.Gen.KernelIdeal.Launch
import proofs.«160117_j7284264534722_1_alg».proof.Proof.Gen.KernelIdeal.Points
import proofs.«160117_j7284264534722_1_alg».proof.Proof.Gen.KernelIdeal.Frame
import proofs.«160117_j7284264534722_1_alg».proof.Proof.Gen.ReferenceIdeal
import proofs.«160117_j7284264534722_1_alg».proof.Proof.Gen.Pre_finite_inputs
import proofs.«160117_j7284264534722_1_alg».proof.Proof.Gen.KernelIdeal.Value
import proofs.«160117_j7284264534722_1_alg».proof.Proof.Gen.ReferenceIdeal.Run
import proofs.«160117_j7284264534722_1_alg».proof.Proof.Gen.ReferenceIdeal.Read
import proofs.«160117_j7284264534722_1_alg».proof.Proof.BmmRun
import proofs.«160117_j7284264534722_1_alg».proof.Proof.BmmRef
import Idealize.ShloMosaic.Adequacy
import Idealize.ShloMosaic.Init

noncomputable section

namespace Cert.Proof

open Idealize.ShloMosaic Idealize.SL.Sem Cert.Kernel

/-- Both idealized programs end with the batched product of operands that agree. -/
theorem algebraic : Cert.algebraic_KernelIdeal_ReferenceIdeal := by
  intro m ρ m' ρ' _ hagree
  refine ⟨fun c => Cert.KernelIdeal.BmmRun.product m c, Cert.KernelIdeal.BmmRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.BmmRef.reference_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
